-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64x128 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S64x128 .f32) (main_arg6 : FVec F S64x128 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S128x64 : Shape := ⟨2, ![128, 64]⟩
abbrev S_ : Shape := ⟨0, ![]⟩
abbrev S800000x1 : Shape := ⟨2, ![800000, 1]⟩
abbrev S800000x128 : Shape := ⟨2, ![800000, 128]⟩
abbrev S5000x128 : Shape := ⟨2, ![5000, 128]⟩
abbrev S1x128 : Shape := ⟨2, ![1, 128]⟩
abbrev S50000x64 : Shape := ⟨2, ![50000, 64]⟩
abbrev S5000x64 : Shape := ⟨2, ![5000, 64]⟩
abbrev S1x64 : Shape := ⟨2, ![1, 64]⟩

abbrev nBuf : Space → Nat
  | .hbm => 44
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S64x128, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S128x128, .f32⟩
  | .hbm, ⟨13, _⟩ => ⟨S128x128, .f32⟩
  | .hbm, ⟨14, _⟩ => ⟨S128x64, .f32⟩
  | .hbm, ⟨15, _⟩ => ⟨S128x64, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S50000x128, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S64, .f32⟩
  | .local _ .vmem, ⟨16, _⟩ => ⟨S5000x64, .f32⟩
  | .local _ .vmem, ⟨17, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_1 : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x128_S128x128_1_0 : S128x128.Transposes [1, 0] S128x128
  transposes_S64x128_S128x64_1_0 : S64x128.Transposes [1, 0] S128x64
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v17) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 53
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S64x128, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S50000x128, .f32⟩
  | .hbm, ⟨26, _⟩ => ⟨S50000x128, .f32⟩
  | .hbm, ⟨27, _⟩ => ⟨S50000x128, .f32⟩
  | .hbm, ⟨28, _⟩ => ⟨S1x128, .f32⟩
  | .hbm, ⟨29, _⟩ => ⟨S50000x128, .f32⟩
  | .hbm, ⟨30, _⟩ => ⟨S50000x128, .f32⟩
  | .hbm, ⟨31, _⟩ => ⟨S_, .f32⟩
  | .hbm, ⟨32, _⟩ => ⟨S50000x128, .f32⟩
  | .hbm, ⟨33, _⟩ => ⟨S50000x128, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S50000x64, .f32⟩
  | .hbm, ⟨48, _⟩ => ⟨S50000x64, .f32⟩
  | .hbm, ⟨49, _⟩ => ⟨S50000x64, .f32⟩
  | .hbm, ⟨50, _⟩ => ⟨S1x64, .f32⟩
  | .hbm, ⟨51, _⟩ => ⟨S50000x64, .f32⟩
  | .hbm, ⟨52, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_c_1 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_1_0_0_n_n_wf : DotDims.WF S50000x128 S128x128 S50000x128 [1] [1] [0] [0] [] []
  dot_S50000x128_S64x128_S50000x64_1_1_0_0_n_n_wf : DotDims.WF S50000x128 S64x128 S50000x64 [1] [1] [0] [0] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_1_0_0_n_n : DotDims S50000x128 S128x128 S50000x128 where
  lhsContracting := [1]
  rhsContracting := [1]
  lhsNonContracting := [0]
  rhsNonContracting := [0]
  lhsBatch := []
  rhsBatch := []
  wf := dot_S50000x128_S128x128_S50000x128_1_1_0_0_n_n_wf
def dot_S50000x128_S64x128_S50000x64_1_1_0_0_n_n : DotDims S50000x128 S64x128 S50000x64 where
  lhsContracting := [1]
  rhsContracting := [1]
  lhsNonContracting := [0]
  rhsNonContracting := [0]
  lhsBatch := []
  rhsBatch := []
  wf := dot_S50000x128_S64x128_S50000x64_1_1_0_0_n_n_wf

class Facts : Prop extends Facts₀ where

variable [Facts]
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.LibMatmulAt.lean ====
/-
  A matrix product read by coordinates.

  For dimension numbers that contract the LEFT operand's second axis with the RIGHT operand's first, with no batch
  axis — a plain [P, K] × [K, Q] product — the product accumulated into the zero array holds, at (p, q),

      Σ_k a[p, k] · w[k, q] ,   k below K,

  on the extended reals: the accumulator's zero is the additive zero, and the contraction's positions are the numbers
  below the contracted extent (the general facts about one contracted axis are in LibContraction). Nothing is assumed
  of the entries: the statement holds at the infinite values too, being a re-indexing of one sum.
-/
import proofs.«155508_j21260088115544_1_alg».proof.Proof.LibContraction

noncomputable section

open scoped BigOperators

namespace Cert.Lib.MatmulAt

open Idealize.ShloMosaic Idealize.ShloMosaic.ValueIdx Cert.Lib.Contraction

/-- At the contraction position that `k` names, the left operand is read at (p, k). -/
theorem lhsIdx_eq {P K Q : Nat} (d : DotDims ⟨2, ![P, K]⟩ ⟨2, ![K, Q]⟩ ⟨2, ![P, Q]⟩)
    (hlc : d.lhsContracting = [1]) (hlb : d.lhsBatch = []) (hln : d.lhsNonContracting = [0])
    (p : Fin P) (q : Fin Q) (k : Fin K) :
    d.lhsIdx (ix2 p q) ((contrFin d hlc K rfl).symm k) = ix2 p k := by
  funext a
  apply Fin.ext
  match a with
  | ⟨0, _⟩ => exact lhs_free d hlb hln (ix2 p q) _ (show (0 : Nat) < 2 by omega)
  | ⟨1, _⟩ => exact lhs_contracted d hlc K rfl (ix2 p q) k

/-- At the contraction position that `k` names, the right operand is read at (k, q). -/
theorem rhsIdx_eq {P K Q : Nat} (d : DotDims ⟨2, ![P, K]⟩ ⟨2, ![K, Q]⟩ ⟨2, ![P, Q]⟩)
    (hlc : d.lhsContracting = [1]) (hrc : d.rhsContracting = [0]) (hlb : d.lhsBatch = []) (hrb : d.rhsBatch = [])
    (hln : d.lhsNonContracting = [0]) (hrn : d.rhsNonContracting = [1])
    (p : Fin P) (q : Fin Q) (k : Fin K) :
    d.rhsIdx (ix2 p q) ((contrFin d hlc K rfl).symm k) = ix2 k q := by
  funext a
  apply Fin.ext
  match a with
  | ⟨0, _⟩ => exact rhs_contracted d hlc hrc K rfl (ix2 p q) k
  | ⟨1, _⟩ => exact rhs_free d hlb hrb hln hrn (ix2 p q) _ (show (1 : Nat) < 2 by omega)

/-- The product into the zero accumulator, at (p, q): the sum over `k` of a[p, k] · w[k, q]. -/
theorem matmul_zero_at {P K Q : Nat} {φ₁ φ₂ : FTy} (d : DotDims ⟨2, ![P, K]⟩ ⟨2, ![K, Q]⟩ ⟨2, ![P, Q]⟩)
    (hlc : d.lhsContracting = [1]) (hrc : d.rhsContracting = [0]) (hlb : d.lhsBatch = []) (hrb : d.rhsBatch = [])
    (hln : d.lhsNonContracting = [0]) (hrn : d.rhsNonContracting = [1])
    (prec : Option ContractPrecision) (a : FVec Ideal ⟨2, ![P, K]⟩ φ₁) (w : FVec Ideal ⟨2, ![K, Q]⟩ φ₂)
    (p : Fin P) (q : Fin Q) :
    FloatOps.matmul d prec a w (constant (F := Ideal) ⟨2, ![P, Q]⟩ .f32 0x00000000#32) (ix2 p q)
      = ∑ k : Fin K, a (ix2 p k) * w (ix2 k q) := by
  refine (Ideal.matmul_constant_zero_apply d prec a w (ix2 p q)).trans ?_
  refine (sum_contr d hlc K rfl _).trans ?_
  refine Finset.sum_congr rfl fun k _ => ?_
  rw [lhsIdx_eq d hlc hlb hln p q k, rhsIdx_eq d hlc hrc hlb hrb hln hrn p q k]

end Cert.Lib.MatmulAt

end
-- ==== Proof.KBody.lean ====
/-
  What each kernel body stores, entry by entry, from the blocks it loads.

  A body loads a block `x0` of neighbour sums and a block `x1` of features (5000 rows of 128), the two weights `x2`,
  `x3` stored [in, out], and the bias `x4`, and stores, at row `p` and column `q`,

      (Σ_k x0[p,k] · x2[k,q]  +  Σ_k x1[p,k] · x3[k,q])  +  x4[q] ,

  the first body followed by the maximum with zero. On the extended reals the narrowing of the operands to a shorter
  float format is the identity, each product into a zero accumulator is the plain sum over the 128 input features
  (LibMatmulAt), and the bias, cast to one row and broadcast over the rows, is read at its column.
-/
import proofs.«155508_j21260088115544_1_alg».proof.Proof.Gen.KernelIdeal.Skeleton
import proofs.«155508_j21260088115544_1_alg».proof.Proof.LibMatmulAt
import Idealize.ShloMosaic.Lib.ValueLayout
import Idealize.ShloMosaic.Lib.Pipeline.Value

noncomputable section

open scoped BigOperators

namespace Cert.KernelIdeal.BodyVal

open Cert.KernelIdeal Cert.KernelIdeal.Gen
open Idealize.ShloMosaic Idealize.ShloMosaic.ValueIdx

/-- The first body's two products at (p, q): the sum over the input features of block entry times weight entry. -/
theorem matmul128_at {φ₁ φ₂ : FTy} (a : FVec Ideal S5000x128 φ₁) (w : FVec Ideal S128x128 φ₂) (p : Fin 5000) (q : Fin 128) :
    FloatOps.matmul dot_S5000x128_S128x128_S5000x128_1_0_0_1_n_n none a w
        (constant (F := Ideal) S5000x128 .f32 0x00000000#32) (ix2 p q)
      = ∑ k : Fin 128, a (ix2 p k) * w (ix2 k q) :=
  Cert.Lib.MatmulAt.matmul_zero_at dot_S5000x128_S128x128_S5000x128_1_0_0_1_n_n rfl rfl rfl rfl rfl rfl none a w p q

/-- The second body's two products at (p, q), 64 output features. -/
theorem matmul64_at {φ₁ φ₂ : FTy} (a : FVec Ideal S5000x128 φ₁) (w : FVec Ideal S128x64 φ₂) (p : Fin 5000) (q : Fin 64) :
    FloatOps.matmul dot_S5000x128_S128x64_S5000x64_1_0_0_1_n_n none a w
        (constant (F := Ideal) S5000x64 .f32 0x00000000#32) (ix2 p q)
      = ∑ k : Fin 128, a (ix2 p k) * w (ix2 k q) :=
  Cert.Lib.MatmulAt.matmul_zero_at dot_S5000x128_S128x64_S5000x64_1_0_0_1_n_n rfl rfl rfl rfl rfl rfl none a w p q

/-- The bias as the first body adds it: cast to one row, broadcast over the 5000 rows, read at its column. -/
theorem bias128_at (x4 : FVec Ideal S128 .f32) (p : Fin 5000) (q : Fin 128) :
    broadcastTo S5000x128 (shapeCast S1x128 x4 shapeCasts_S128_S1x128) broadcasts_S1x128_S5000x128 (ix2 p q) = x4 (ix1 q) :=
  (broadcastTo_1b_ab_apply _ broadcasts_S1x128_S5000x128 p q).trans (shapeCast_a_1a_apply x4 shapeCasts_S128_S1x128 0 q)

theorem bias64_at (x4 : FVec Ideal S64 .f32) (p : Fin 5000) (q : Fin 64) :
    broadcastTo S5000x64 (shapeCast S1x64 x4 shapeCasts_S64_S1x64) broadcasts_S1x64_S5000x64 (ix2 p q) = x4 (ix1 q) :=
  (broadcastTo_1b_ab_apply _ broadcasts_S1x64_S5000x64 p q).trans (shapeCast_a_1a_apply x4 shapeCasts_S64_S1x64 0 q)

/-- THE FIRST BODY at (p, q). -/
theorem pay0_at (x0 x1 : FVec Ideal S5000x128 .f32) (x2 x3 : FVec Ideal S128x128 .f32) (x4 : FVec Ideal S128 .f32)
    (p : Fin 5000) (q : Fin 128) :
    k0_pay1 (F := Ideal) x0 x1 x2 x3 x4 (ix2 p q)
      = max ((∑ k : Fin 128, x0 (ix2 p k) * x2 (ix2 k q) + ∑ k : Fin 128, x1 (ix2 p k) * x3 (ix2 k q)) + x4 (ix1 q)) 0 := by
  unfold k0_pay1
  show max ((FloatOps.matmul dot_S5000x128_S128x128_S5000x128_1_0_0_1_n_n none
          (truncf (F := Ideal) .bf16 (shapeCast S5000x128 x0 shapeCasts_S5000x128_S5000x128) bitsLt_bf16_f32)
          (truncf (F := Ideal) .bf16 (shapeCast S128x128 x2 shapeCasts_S128x128_S128x128) bitsLt_bf16_f32)
          (constant (F := Ideal) S5000x128 .f32 0x00000000#32) (ix2 p q)
        + FloatOps.matmul dot_S5000x128_S128x128_S5000x128_1_0_0_1_n_n none
          (truncf (F := Ideal) .bf16 x1 bitsLt_bf16_f32)
          (truncf (F := Ideal) .bf16 (shapeCast S128x128 x3 shapeCasts_S128x128_S128x128) bitsLt_bf16_f32)
          (constant (F := Ideal) S5000x128 .f32 0x00000000#32) (ix2 p q))
        + broadcastTo S5000x128 (shapeCast S1x128 x4 shapeCasts_S128_S1x128) broadcasts_S1x128_S5000x128 (ix2 p q))
      (Ideal.ofBits .f32 0x00000000#32) = _
  rw [matmul128_at, matmul128_at, bias128_at, Ideal.ofBits_zero_f32]
  simp only [truncf_apply, shapeCast_self]

/-- THE SECOND BODY at (p, q). -/
theorem pay1_at (x0 x1 : FVec Ideal S5000x128 .f32) (x2 x3 : FVec Ideal S128x64 .f32) (x4 : FVec Ideal S64 .f32)
    (p : Fin 5000) (q : Fin 64) :
    k1_pay1 (F := Ideal) x0 x1 x2 x3 x4 (ix2 p q)
      = (∑ k : Fin 128, x0 (ix2 p k) * x2 (ix2 k q) + ∑ k : Fin 128, x1 (ix2 p k) * x3 (ix2 k q)) + x4 (ix1 q) := by
  unfold k1_pay1
  show (FloatOps.matmul dot_S5000x128_S128x64_S5000x64_1_0_0_1_n_n none
          (truncf (F := Ideal) .bf16 (shapeCast S5000x128 x0 shapeCasts_S5000x128_S5000x128) bitsLt_bf16_f32)
          (truncf (F := Ideal) .bf16 (shapeCast S128x64 x2 shapeCasts_S128x64_S128x64) bitsLt_bf16_f32)
          (constant (F := Ideal) S5000x64 .f32 0x00000000#32) (ix2 p q)
        + FloatOps.matmul dot_S5000x128_S128x64_S5000x64_1_0_0_1_n_n none
          (truncf (F := Ideal) .bf16 (shapeCast S5000x128 x1 shapeCasts_S5000x128_S5000x128) bitsLt_bf16_f32)
          (truncf (F := Ideal) .bf16 (shapeCast S128x64 x3 shapeCasts_S128x64_S128x64) bitsLt_bf16_f32)
          (constant (F := Ideal) S5000x64 .f32 0x00000000#32) (ix2 p q))
        + broadcastTo S5000x64 (shapeCast S1x64 x4 shapeCasts_S64_S1x64) broadcasts_S1x64_S5000x64 (ix2 p q) = _
  rw [matmul64_at, matmul64_at, bias64_at]
  simp only [truncf_apply, shapeCast_self]

end Cert.KernelIdeal.BodyVal

end
-- ==== Proof.Spec.lean ====
/-
  One graph-convolution layer, entry by entry, on the extended reals.

  With `A` the neighbour sums and `X` the node features (50000 nodes, 128 features each), `W` and `Wr` the two weight
  matrices stored [out, in] and `b` the bias, the layer's linear part at node `n` and output feature `h` is

      (Σ_k A[n,k] · W[h,k]  +  Σ_k X[n,k] · Wr[h,k])  +  b[h] ,

  the two sums over the 128 input features, added in this order. `conv128` and `conv64` are this array for 128 and for
  64 output features; `convAt128` / `convAt64` are one entry at coordinates given as numbers below the literal extents.
  `relu` is the entrywise maximum with zero.

  The `T` forms are the same sums with the weights stored [in, out], so that the entry reads `WT[k,h]`: that is what a
  product with a matrix transposed beforehand computes. On a transposed matrix they are the plain forms
  (`convT128_transpose`, `convT64_transpose`): the transpose read at (k, h) is the matrix at (h, k), term by term, so no
  law of addition or multiplication is used and the infinite values need no care.
-/
import Idealize.ShloMosaic.PureOps.Ideal.Laws
import Idealize.ShloMosaic.Lib.ValueIdx
import Idealize.ShloMosaic.Lib.ValueLayout

noncomputable section

open scoped BigOperators

namespace Cert.GraphConv

open Idealize.ShloMosaic Idealize.ShloMosaic.ValueIdx

/-- Node features: 50000 nodes by 128 features. -/
abbrev SN128 : Shape := ⟨2, ![50000, 128]⟩
/-- The second layer's result: 50000 nodes by 64 features. -/
abbrev SN64 : Shape := ⟨2, ![50000, 64]⟩
/-- A first-layer weight, [out, in] = [128, 128] (its transpose has the same shape). -/
abbrev SW128 : Shape := ⟨2, ![128, 128]⟩
/-- A second-layer weight, [out, in] = [64, 128]. -/
abbrev SW64 : Shape := ⟨2, ![64, 128]⟩
/-- A second-layer weight transposed, [in, out] = [128, 64]. -/
abbrev SWT64 : Shape := ⟨2, ![128, 64]⟩
abbrev SB128 : Shape := ⟨1, ![128]⟩
abbrev SB64 : Shape := ⟨1, ![64]⟩

/-! ## Weights stored [out, in] -/

/-- The first layer's linear part at node `n`, output feature `h`. -/
def convAt128 (A X : FVec Ideal SN128 .f32) (W Wr : FVec Ideal SW128 .f32) (b : FVec Ideal SB128 .f32)
    (n : Fin 50000) (h : Fin 128) : EReal :=
  (∑ k : Fin 128, A (ix2 n k) * W (ix2 h k) + ∑ k : Fin 128, X (ix2 n k) * Wr (ix2 h k)) + b (ix1 h)

/-- The first layer's linear part as an array. -/
def conv128 (A X : FVec Ideal SN128 .f32) (W Wr : FVec Ideal SW128 .f32) (b : FVec Ideal SB128 .f32) :
    FVec Ideal SN128 .f32 :=
  fun i => convAt128 A X W Wr b (i 0) (i 1)

/-- The second layer at node `n`, output feature `h`. -/
def convAt64 (A X : FVec Ideal SN128 .f32) (W Wr : FVec Ideal SW64 .f32) (b : FVec Ideal SB64 .f32)
    (n : Fin 50000) (h : Fin 64) : EReal :=
  (∑ k : Fin 128, A (ix2 n k) * W (ix2 h k) + ∑ k : Fin 128, X (ix2 n k) * Wr (ix2 h k)) + b (ix1 h)

/-- The second layer as an array. -/
def conv64 (A X : FVec Ideal SN128 .f32) (W Wr : FVec Ideal SW64 .f32) (b : FVec Ideal SB64 .f32) :
    FVec Ideal SN64 .f32 :=
  fun i => convAt64 A X W Wr b (i 0) (i 1)

/-- The entrywise maximum with zero. -/
def relu (Y : FVec Ideal SN128 .f32) : FVec Ideal SN128 .f32 := fun i => max (Y i) 0

theorem conv128_ix2 (A X : FVec Ideal SN128 .f32) (W Wr : FVec Ideal SW128 .f32) (b : FVec Ideal SB128 .f32)
    (n : Fin 50000) (h : Fin 128) : conv128 A X W Wr b (ix2 n h) = convAt128 A X W Wr b n h := rfl

theorem conv64_ix2 (A X : FVec Ideal SN128 .f32) (W Wr : FVec Ideal SW64 .f32) (b : FVec Ideal SB64 .f32)
    (n : Fin 50000) (h : Fin 64) : conv64 A X W Wr b (ix2 n h) = convAt64 A X W Wr b n h := rfl

theorem relu_apply (Y : FVec Ideal SN128 .f32) (i : SN128.Idx) : relu Y i = max (Y i) 0 := rfl

/-! ## Weights stored [in, out] -/

/-- The first layer's linear part at (n, h), reading the weights as stored [in, out]. -/
def convTAt128 (A X : FVec Ideal SN128 .f32) (WT WrT : FVec Ideal SW128 .f32) (b : FVec Ideal SB128 .f32)
    (n : Fin 50000) (h : Fin 128) : EReal :=
  (∑ k : Fin 128, A (ix2 n k) * WT (ix2 k h) + ∑ k : Fin 128, X (ix2 n k) * WrT (ix2 k h)) + b (ix1 h)

def convT128 (A X : FVec Ideal SN128 .f32) (WT WrT : FVec Ideal SW128 .f32) (b : FVec Ideal SB128 .f32) :
    FVec Ideal SN128 .f32 :=
  fun i => convTAt128 A X WT WrT b (i 0) (i 1)

/-- The second layer at (n, h), reading the weights as stored [in, out]. -/
def convTAt64 (A X : FVec Ideal SN128 .f32) (WT WrT : FVec Ideal SWT64 .f32) (b : FVec Ideal SB64 .f32)
    (n : Fin 50000) (h : Fin 64) : EReal :=
  (∑ k : Fin 128, A (ix2 n k) * WT (ix2 k h) + ∑ k : Fin 128, X (ix2 n k) * WrT (ix2 k h)) + b (ix1 h)

def convT64 (A X : FVec Ideal SN128 .f32) (WT WrT : FVec Ideal SWT64 .f32) (b : FVec Ideal SB64 .f32) :
    FVec Ideal SN64 .f32 :=
  fun i => convTAt64 A X WT WrT b (i 0) (i 1)

theorem convT128_ix2 (A X : FVec Ideal SN128 .f32) (WT WrT : FVec Ideal SW128 .f32) (b : FVec Ideal SB128 .f32)
    (n : Fin 50000) (h : Fin 128) : convT128 A X WT WrT b (ix2 n h) = convTAt128 A X WT WrT b n h := rfl

theorem convT64_ix2 (A X : FVec Ideal SN128 .f32) (WT WrT : FVec Ideal SWT64 .f32) (b : FVec Ideal SB64 .f32)
    (n : Fin 50000) (h : Fin 64) : convT64 A X WT WrT b (ix2 n h) = convTAt64 A X WT WrT b n h := rfl

/-- A product with the transposed weights is the product with the weights' rows: the transpose at (k, h) is the matrix
    at (h, k), in every term of both sums. -/
theorem convTAt128_transpose (A X : FVec Ideal SN128 .f32) (W Wr : FVec Ideal SW128 .f32) (b : FVec Ideal SB128 .f32)
    (h1 h2 : SW128.Transposes [1, 0] SW128) (n : Fin 50000) (h : Fin 128) :
    convTAt128 A X (transpose SW128 [1, 0] W h1) (transpose SW128 [1, 0] Wr h2) b n h = convAt128 A X W Wr b n h := by
  have e1 : ∀ k : Fin 128, transpose SW128 [1, 0] W h1 (ix2 k h) = W (ix2 h k) := fun k => transpose_ix2_apply W h1 k h
  have e2 : ∀ k : Fin 128, transpose SW128 [1, 0] Wr h2 (ix2 k h) = Wr (ix2 h k) := fun k => transpose_ix2_apply Wr h2 k h
  unfold convTAt128 convAt128
  simp only [e1, e2]

theorem convT128_transpose (A X : FVec Ideal SN128 .f32) (W Wr : FVec Ideal SW128 .f32) (b : FVec Ideal SB128 .f32)
    (h1 h2 : SW128.Transposes [1, 0] SW128) :
    convT128 A X (transpose SW128 [1, 0] W h1) (transpose SW128 [1, 0] Wr h2) b = conv128 A X W Wr b :=
  funext fun i => convTAt128_transpose A X W Wr b h1 h2 (i 0) (i 1)

/-- The same for the second layer's [64, 128] weights and their [128, 64] transposes. -/
theorem convTAt64_transpose (A X : FVec Ideal SN128 .f32) (W Wr : FVec Ideal SW64 .f32) (b : FVec Ideal SB64 .f32)
    (h1 h2 : SW64.Transposes [1, 0] SWT64) (n : Fin 50000) (h : Fin 64) :
    convTAt64 A X (transpose SWT64 [1, 0] W h1) (transpose SWT64 [1, 0] Wr h2) b n h = convAt64 A X W Wr b n h := by
  have e1 : ∀ k : Fin 128, transpose SWT64 [1, 0] W h1 (ix2 k h) = W (ix2 h k) := fun k => transpose_ix2_apply W h1 k h
  have e2 : ∀ k : Fin 128, transpose SWT64 [1, 0] Wr h2 (ix2 k h) = Wr (ix2 h k) := fun k => transpose_ix2_apply Wr h2 k h
  unfold convTAt64 convAt64
  simp only [e1, e2]

theorem convT64_transpose (A X : FVec Ideal SN128 .f32) (W Wr : FVec Ideal SW64 .f32) (b : FVec Ideal SB64 .f32)
    (h1 h2 : SW64.Transposes [1, 0] SWT64) :
    convT64 A X (transpose SWT64 [1, 0] W h1) (transpose SWT64 [1, 0] Wr h2) b = conv64 A X W Wr b :=
  funext fun i => convTAt64_transpose A X W Wr b h1 h2 (i 0) (i 1)

end Cert.GraphConv

end
-- ==== Proof.KRegion0.lean ====
/-
  The first launch's result array, from whatever the launch finds in its input arrays.

  The launch walks ten grid points. At point `t` it stages rows 5000·t … 5000·t + 4999 of the neighbour sums and of the
  features, the two whole weights (stored [in, out]) and the whole bias, runs the body, and writes the body's block back
  to the same rows of the result. So a block's entry (p, q) is the layer formula at node n = 5000·t + p and feature q:

      max( (Σ_k A[n,k] · WT[k,q]  +  Σ_k X[n,k] · WrT[k,q])  +  b[q] ,  0 ) ,

  and since the ten row blocks tile the 50000 rows (row n is in block n / 5000), the whole result array is that function
  of the input arrays: `value`.
-/
import proofs.«155508_j21260088115544_1_alg».proof.Proof.Gen.KernelIdeal.Frame
import proofs.«155508_j21260088115544_1_alg».proof.Proof.KBody
import proofs.«155508_j21260088115544_1_alg».proof.Proof.Spec
import Idealize.ShloMosaic.Lib.Pipeline.Value

set_option maxRecDepth 16384

noncomputable section

open scoped BigOperators

namespace Cert.KernelIdeal.Region0

open Cert.KernelIdeal Cert.KernelIdeal.Gen Cert.KernelIdeal.BodyVal Cert.GraphConv
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD)

/-! ## The input arrays as the launch finds them, each at its literal type -/

abbrev aggArr : FVec Ideal S50000x128 .f32 := V c main_v17
abbrev featArr : FVec Ideal S50000x128 .f32 := V c main_arg0
abbrev wrelT : FVec Ideal S128x128 .f32 := V c main_v4
abbrev wrootT : FVec Ideal S128x128 .f32 := V c main_v5
abbrev biasArr : FVec Ideal S128 .f32 := V c main_arg4

/-- What the launch leaves in its result array: the first layer over weights stored [in, out]. -/
def G : FVec Ideal S50000x128 .f32 :=
  relu (convT128 (aggArr V c) (featArr V c) (wrelT V c) (wrootT V c) (biasArr V c))

theorem hz : (![0, 0] : Fin 2 → Nat) = fun _ => 0 := funext fun a => by fin_cases a <;> rfl
theorem hz1 : (![0] : Fin 1 → Nat) = fun _ => 0 := funext fun a => by fin_cases a; rfl

/-- The block index of every window at every grid point: the three row-blocked windows are at block `t` of the rows,
    the weights and the bias at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-! ## Each staged block, read at coordinates, is its array at the block's rows -/

/-- The neighbour-sum block at point `t`: rows 5000·t + p. -/
theorem aggBlk_at (t : Fin cfg0.N) (p : Fin 5000) (k : Fin 128) (hp : t.val * 5000 + p.val < 50000) :
    (iblk0 V c 0 t : FVec Ideal S5000x128 .f32) (ix2 p k) = aggArr V c (ix2 ⟨t.val * 5000 + p.val, hp⟩ k) := by
  obtain ⟨e0, e1, -⟩ := idx_facts t
  unfold iblk0
  rw [View.read_apply]
  show aggArr V c _ = aggArr V c _
  refine congrArg (aggArr V c) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The feature block at point `t`: the same rows. -/
theorem featBlk_at (t : Fin cfg0.N) (p : Fin 5000) (k : Fin 128) (hp : t.val * 5000 + p.val < 50000) :
    (iblk0 V c 1 t : FVec Ideal S5000x128 .f32) (ix2 p k) = featArr V c (ix2 ⟨t.val * 5000 + p.val, hp⟩ k) := by
  obtain ⟨-, -, e0, e1, -⟩ := idx_facts t
  unfold iblk0
  rw [View.read_apply]
  show featArr V c _ = featArr V c _
  refine congrArg (featArr V c) (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

/-- The neighbour weight's one block is the whole weight. -/
theorem wrelBlk_at (t : Fin cfg0.N) (k q : Fin 128) :
    (iblk0 V c 2 t : FVec Ideal S128x128 .f32) (ix2 k q) = wrelT V c (ix2 k q) := by
  obtain ⟨-, -, -, -, e0, e1, -⟩ := idx_facts t
  unfold iblk0
  rw [View.read_apply]
  show wrelT V c _ = wrelT V c _
  refine congrArg (wrelT V c) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The root weight's one block is the whole weight. -/
theorem wrootBlk_at (t : Fin cfg0.N) (k q : Fin 128) :
    (iblk0 V c 3 t : FVec Ideal S128x128 .f32) (ix2 k q) = wrootT V c (ix2 k q) := by
  obtain ⟨-, -, -, -, -, -, e0, e1, -⟩ := idx_facts t
  unfold iblk0
  rw [View.read_apply]
  show wrootT V c _ = wrootT V c _
  refine congrArg (wrootT V c) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The bias's one block is the whole bias. -/
theorem biasBlk_at (t : Fin cfg0.N) (q : Fin 128) :
    (iblk0 V c 4 t : FVec Ideal S128 .f32) (ix1 q) = biasArr V c (ix1 q) := by
  obtain ⟨-, -, -, -, -, -, -, -, e0, -⟩ := idx_facts t
  unfold iblk0
  rw [View.read_apply]
  show biasArr V c _ = biasArr V c _
  refine congrArg (biasArr V c) (funext fun a => Fin.ext ?_)
  match a with
  | ⟨0, _⟩ => show win0_4.index t (0 : Fin 1) * 128 + 1 * q.val = q.val; omega

/-! ## The body's block is the layer formula at the block's rows -/

/-- Entry (p, q) of what the body stores at point `t` is the layer at node 5000·t + p, feature q. -/
theorem block_value (t : Fin cfg0.N) (p : Fin 5000) (q : Fin 128) (hp : t.val * 5000 + p.val < 50000) :
    k0_pay1 (F := Ideal) (iblk0 V c 0 t) (iblk0 V c 1 t) (iblk0 V c 2 t) (iblk0 V c 3 t) (iblk0 V c 4 t) (ix2 p q)
      = G V c (ix2 ⟨t.val * 5000 + p.val, hp⟩ q) := by
  refine (pay0_at (iblk0 V c 0 t) (iblk0 V c 1 t) (iblk0 V c 2 t) (iblk0 V c 3 t) (iblk0 V c 4 t) p q).trans ?_
  show _ = max (convTAt128 (aggArr V c) (featArr V c) (wrelT V c) (wrootT V c) (biasArr V c) ⟨t.val * 5000 + p.val, hp⟩ q) 0
  unfold convTAt128
  refine congrArg (fun z : EReal => max z 0) ?_
  refine congrArg₂ (· + ·) (congrArg₂ (· + ·) (Finset.sum_congr rfl fun k _ => ?_) (Finset.sum_congr rfl fun k _ => ?_)) ?_
  · rw [aggBlk_at V c t p k hp, wrelBlk_at V c t k q]
  · rw [featBlk_at V c t p k hp, wrootBlk_at V c t k q]
  · exact biasBlk_at V c t q

/-- Where the result's block at point `t` sits in the result array: rows 5000·t + p. -/
theorem outEmb (t : Fin cfg0.N) (p : Fin 5000) (q : Fin 128) (hp : t.val * 5000 + p.val < 50000) :
    ((cfg0.win 5).blk t).view.emb (ix2 p q) = (ix2 ⟨t.val * 5000 + p.val, hp⟩ q : S50000x128.Idx) := by
  obtain ⟨-, -, -, -, -, -, -, -, -, e0, e1⟩ := idx_facts t
  refine funext fun a => Fin.ext ?_
  match a with
  | ⟨0, _⟩ => show win0_5.index t (0 : Fin 2) * 5000 + 1 * p.val = t.val * 5000 + p.val; omega
  | ⟨1, _⟩ => show win0_5.index t (1 : Fin 2) * 128 + 1 * q.val = q.val; omega

/-- WHAT POINT `t` WRITES BACK is block `t` of `G`. -/
theorem flushed_eq (t : Fin cfg0.N) :
    (dat0 V c).flushed 5 t = ((cfg0.win 5).blk t).view.read (Elt Ideal) (G V c) := by
  have hN : cfg0.N = 10 := N_0
  have ht : t.val < 10 := hN ▸ t.isLt
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S128) hz1]
  funext j
  obtain ⟨p, q, rfl⟩ : ∃ (p : Fin 5000) (q : Fin 128), j = ix2 p q := ⟨j 0, j 1, eq_ix2 j⟩
  have hp : t.val * 5000 + p.val < 50000 := by have := p.isLt; omega
  show k0_pay1 (F := Ideal) (iblk0 V c 0 t) (iblk0 V c 1 t) (iblk0 V c 2 t) (iblk0 V c 3 t) (iblk0 V c 4 t) (ix2 p q)
      = G V c (((cfg0.win 5).blk t).view.emb (ix2 p q))
  rw [outEmb t p q hp]
  exact block_value V c t p q hp

/-! ## The ten row blocks tile the result -/

/-- An index of the result is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v18).slice (win0_5.rect t)).set ↔ _
  rw [View.set_slice_whole, Rect.mem_set_unit]
  exact Iff.rfl

/-- Row n of the result is written by point n / 5000. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  have hlt : (i 0).val / 5000 < cfg0.N := by rw [hN]; omega
  obtain ⟨-, -, -, -, -, -, -, -, -, e0, e1⟩ := idx_facts ⟨(i 0).val / 5000, hlt⟩
  refine ⟨⟨(i 0).val / 5000, hlt⟩, flush0_5 _, ?_⟩
  rw [mem_blk]
  intro a
  match a with
  | ⟨0, _⟩ =>
    show win0_5.index ⟨(i 0).val / 5000, hlt⟩ (0 : Fin 2) * 5000 ≤ (i 0).val
      ∧ (i 0).val < win0_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_5.index ⟨(i 0).val / 5000, hlt⟩ (1 : Fin 2) * 128 ≤ (i 1).val
      ∧ (i 1).val < win0_5.index ⟨(i 0).val / 5000, hlt⟩ (1 : Fin 2) * 128 + 128
    omega

/-! ## The result array -/

/-- THE RESULT ARRAY after the launch is the first layer of the arrays the launch found. -/
theorem value : (dat0 V c).arrAt 5 cfg0.N = G V c :=
  (dat0 V c).arrAt_eq_of_cover 5 (G V c) (fun t _ => flushed_eq V c t) (fun i => cover i)

end Cert.KernelIdeal.Region0

end
-- ==== Proof.KRegion1.lean ====
/-
  The second launch's result array, from whatever the launch finds in its input arrays.

  Ten grid points again. At point `t` the launch stages rows 5000·t … 5000·t + 4999 of the second neighbour sums and of
  the first layer's result (128 features each), the two whole second-layer weights stored [in, out] = [128, 64] and the
  whole 64-entry bias, runs the body, and writes the body's 5000 × 64 block back to the same rows of the result. A block's
  entry (p, q) is the layer formula at node n = 5000·t + p and output feature q, with no maximum after it:

      (Σ_k A[n,k] · WT[k,q]  +  Σ_k X[n,k] · WrT[k,q])  +  b[q] ,

  and the ten row blocks tile the 50000 rows, so the whole result array is that function of the input arrays: `value`.
-/
import proofs.«155508_j21260088115544_1_alg».proof.Proof.Gen.KernelIdeal.Frame
import proofs.«155508_j21260088115544_1_alg».proof.Proof.KBody
import proofs.«155508_j21260088115544_1_alg».proof.Proof.Spec
import Idealize.ShloMosaic.Lib.Pipeline.Value

set_option maxRecDepth 16384

noncomputable section

open scoped BigOperators

namespace Cert.KernelIdeal.Region1

open Cert.KernelIdeal Cert.KernelIdeal.Gen Cert.KernelIdeal.BodyVal Cert.GraphConv
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD)

/-! ## The input arrays as the launch finds them, each at its literal type -/

abbrev aggArr : FVec Ideal S50000x128 .f32 := V c main_v28
abbrev featArr : FVec Ideal S50000x128 .f32 := V c main_v18
abbrev wrelT : FVec Ideal S128x64 .f32 := V c main_v6
abbrev wrootT : FVec Ideal S128x64 .f32 := V c main_v7
abbrev biasArr : FVec Ideal S64 .f32 := V c main_arg7

/-- What the launch leaves in its result array: the second layer over weights stored [in, out]. -/
def G : FVec Ideal S50000x64 .f32 :=
  convT64 (aggArr V c) (featArr V c) (wrelT V c) (wrootT V c) (biasArr V c)

theorem hz : (![0, 0] : Fin 2 → Nat) = fun _ => 0 := funext fun a => by fin_cases a <;> rfl
theorem hz1 : (![0] : Fin 1 → Nat) = fun _ => 0 := funext fun a => by fin_cases a; rfl

/-- The block index of every window at every grid point: the three row-blocked windows are at block `t` of the rows,
    the weights and the bias at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-! ## Each staged block, read at coordinates, is its array at the block's rows -/

/-- The neighbour-sum block at point `t`: rows 5000·t + p. -/
theorem aggBlk_at (t : Fin cfg1.N) (p : Fin 5000) (k : Fin 128) (hp : t.val * 5000 + p.val < 50000) :
    (iblk1 V c 0 t : FVec Ideal S5000x128 .f32) (ix2 p k) = aggArr V c (ix2 ⟨t.val * 5000 + p.val, hp⟩ k) := by
  obtain ⟨e0, e1, -⟩ := idx_facts t
  unfold iblk1
  rw [View.read_apply]
  show aggArr V c _ = aggArr V c _
  refine congrArg (aggArr V c) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- The block of the first layer's result at point `t`: the same rows. -/
theorem featBlk_at (t : Fin cfg1.N) (p : Fin 5000) (k : Fin 128) (hp : t.val * 5000 + p.val < 50000) :
    (iblk1 V c 1 t : FVec Ideal S5000x128 .f32) (ix2 p k) = featArr V c (ix2 ⟨t.val * 5000 + p.val, hp⟩ k) := by
  obtain ⟨-, -, e0, e1, -⟩ := idx_facts t
  unfold iblk1
  rw [View.read_apply]
  show featArr V c _ = featArr V c _
  refine congrArg (featArr V c) (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

/-- The neighbour weight's one block is the whole [128, 64] weight. -/
theorem wrelBlk_at (t : Fin cfg1.N) (k : Fin 128) (q : Fin 64) :
    (iblk1 V c 2 t : FVec Ideal S128x64 .f32) (ix2 k q) = wrelT V c (ix2 k q) := by
  obtain ⟨-, -, -, -, e0, e1, -⟩ := idx_facts t
  unfold iblk1
  rw [View.read_apply]
  show wrelT V c _ = wrelT V c _
  refine congrArg (wrelT V c) (funext fun a => Fin.ext ?_)
  match a with
  | ⟨0, _⟩ => show win1_2.index t (0 : Fin 2) * 128 + 1 * k.val = k.val; omega
  | ⟨1, _⟩ => show win1_2.index t (1 : Fin 2) * 64 + 1 * q.val = q.val; omega

/-- The root weight's one block is the whole [128, 64] weight. -/
theorem wrootBlk_at (t : Fin cfg1.N) (k : Fin 128) (q : Fin 64) :
    (iblk1 V c 3 t : FVec Ideal S128x64 .f32) (ix2 k q) = wrootT V c (ix2 k q) := by
  obtain ⟨-, -, -, -, -, -, e0, e1, -⟩ := idx_facts t
  unfold iblk1
  rw [View.read_apply]
  show wrootT V c _ = wrootT V c _
  refine congrArg (wrootT V c) (funext fun a => Fin.ext ?_)
  match a with
  | ⟨0, _⟩ => show win1_3.index t (0 : Fin 2) * 128 + 1 * k.val = k.val; omega
  | ⟨1, _⟩ => show win1_3.index t (1 : Fin 2) * 64 + 1 * q.val = q.val; omega

/-- The bias's one block is the whole 64-entry bias. -/
theorem biasBlk_at (t : Fin cfg1.N) (q : Fin 64) :
    (iblk1 V c 4 t : FVec Ideal S64 .f32) (ix1 q) = biasArr V c (ix1 q) := by
  obtain ⟨-, -, -, -, -, -, -, -, e0, -⟩ := idx_facts t
  unfold iblk1
  rw [View.read_apply]
  show biasArr V c _ = biasArr V c _
  refine congrArg (biasArr V c) (funext fun a => Fin.ext ?_)
  match a with
  | ⟨0, _⟩ => show win1_4.index t (0 : Fin 1) * 64 + 1 * q.val = q.val; omega

/-! ## The body's block is the layer formula at the block's rows -/

/-- Entry (p, q) of what the body stores at point `t` is the layer at node 5000·t + p, output feature q. -/
theorem block_value (t : Fin cfg1.N) (p : Fin 5000) (q : Fin 64) (hp : t.val * 5000 + p.val < 50000) :
    k1_pay1 (F := Ideal) (iblk1 V c 0 t) (iblk1 V c 1 t) (iblk1 V c 2 t) (iblk1 V c 3 t) (iblk1 V c 4 t) (ix2 p q)
      = G V c (ix2 ⟨t.val * 5000 + p.val, hp⟩ q) := by
  refine (pay1_at (iblk1 V c 0 t) (iblk1 V c 1 t) (iblk1 V c 2 t) (iblk1 V c 3 t) (iblk1 V c 4 t) p q).trans ?_
  show _ = convTAt64 (aggArr V c) (featArr V c) (wrelT V c) (wrootT V c) (biasArr V c) ⟨t.val * 5000 + p.val, hp⟩ q
  unfold convTAt64
  refine congrArg₂ (· + ·) (congrArg₂ (· + ·) (Finset.sum_congr rfl fun k _ => ?_) (Finset.sum_congr rfl fun k _ => ?_)) ?_
  · rw [aggBlk_at V c t p k hp, wrelBlk_at V c t k q]
  · rw [featBlk_at V c t p k hp, wrootBlk_at V c t k q]
  · exact biasBlk_at V c t q

/-- Where the result's block at point `t` sits in the result array: rows 5000·t + p. -/
theorem outEmb (t : Fin cfg1.N) (p : Fin 5000) (q : Fin 64) (hp : t.val * 5000 + p.val < 50000) :
    ((cfg1.win 5).blk t).view.emb (ix2 p q) = (ix2 ⟨t.val * 5000 + p.val, hp⟩ q : S50000x64.Idx) := by
  obtain ⟨-, -, -, -, -, -, -, -, -, e0, e1⟩ := idx_facts t
  refine funext fun a => Fin.ext ?_
  match a with
  | ⟨0, _⟩ => show win1_5.index t (0 : Fin 2) * 5000 + 1 * p.val = t.val * 5000 + p.val; omega
  | ⟨1, _⟩ => show win1_5.index t (1 : Fin 2) * 64 + 1 * q.val = q.val; omega

/-- WHAT POINT `t` WRITES BACK is block `t` of `G`. -/
theorem flushed_eq (t : Fin cfg1.N) :
    (dat1 V c).flushed 5 t = ((cfg1.win 5).blk t).view.read (Elt Ideal) (G V c) := by
  have hN : cfg1.N = 10 := N_1
  have ht : t.val < 10 := hN ▸ t.isLt
  show (cfg1.win 5).cut (grid1.coords t) ((dat1 V c).after 5 t) = _
  rw [after1_5]
  unfold out1_5
  rw [View.canon_unit_zero hz]
  simp only [View.ld_unit_zero (S := S5000x128) hz, View.ld_unit_zero (S := S128x64) hz, View.ld_unit_zero (S := S64) hz1]
  funext j
  obtain ⟨p, q, rfl⟩ : ∃ (p : Fin 5000) (q : Fin 64), j = ix2 p q := ⟨j 0, j 1, eq_ix2 j⟩
  have hp : t.val * 5000 + p.val < 50000 := by have := p.isLt; omega
  show k1_pay1 (F := Ideal) (iblk1 V c 0 t) (iblk1 V c 1 t) (iblk1 V c 2 t) (iblk1 V c 3 t) (iblk1 V c 4 t) (ix2 p q)
      = G V c (((cfg1.win 5).blk t).view.emb (ix2 p q))
  rw [outEmb t p q hp]
  exact block_value V c t p q hp

/-! ## The ten row blocks tile the result -/

/-- An index of the result is in point `t`'s block iff each coordinate is in the block's range on its axis. -/
theorem mem_blk (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v29).slice (win1_5.rect t)).set ↔ _
  rw [View.set_slice_whole, Rect.mem_set_unit]
  exact Iff.rfl

/-- Row n of the result is written by point n / 5000. -/
theorem cover (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 10 := N_1
  have hlt : (i 0).val / 5000 < cfg1.N := by rw [hN]; omega
  obtain ⟨-, -, -, -, -, -, -, -, -, e0, e1⟩ := idx_facts ⟨(i 0).val / 5000, hlt⟩
  refine ⟨⟨(i 0).val / 5000, hlt⟩, flush1_5 _, ?_⟩
  rw [mem_blk]
  intro a
  match a with
  | ⟨0, _⟩ =>
    show win1_5.index ⟨(i 0).val / 5000, hlt⟩ (0 : Fin 2) * 5000 ≤ (i 0).val
      ∧ (i 0).val < win1_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win1_5.index ⟨(i 0).val / 5000, hlt⟩ (1 : Fin 2) * 64 ≤ (i 1).val
      ∧ (i 1).val < win1_5.index ⟨(i 0).val / 5000, hlt⟩ (1 : Fin 2) * 64 + 64
    omega

/-! ## The result array -/

/-- THE RESULT ARRAY after the launch is the second layer of the arrays the launch found. -/
theorem value : (dat1 V c).arrAt 5 cfg1.N = G V c :=
  (dat1 V c).arrAt_eq_of_cover 5 (G V c) (fun t _ => flushed_eq V c t) (fun i => cover i)

end Cert.KernelIdeal.Region1

end
-- ==== Proof.KHost.lean ====
/-
  What the host operations around the two kernel launches leave in the arrays the launches read.

  The edge list `e` has two rows: the edges' source nodes (`srcOf e`) and their destination nodes (`dstOf e`).
  `aggOf src dst x` is the array of neighbour sums of a feature array `x`: each edge's source row of `x` is gathered (a
  negative source index first has the number of nodes, 50000, added to it) and the gathered rows are added into their
  destination rows of an array of zeros. It is kept as ONE function of the two index vectors and the feature array: the
  reference computes the same function, and nothing below or above needs to look inside a gather or a scatter.

  Before the first launch the host has computed the neighbour sums of the node features and the two first-layer weights
  transposed; the features and the bias are arguments, untouched. Between the launches it computes the neighbour sums of
  the first launch's result, from the same index vectors; the second-layer weights transposed were computed before the
  first launch and nothing has written them since; the bias is an argument.
-/
import proofs.«155508_j21260088115544_1_alg».proof.Proof.Gen.KernelIdeal.Frame

set_option maxRecDepth 16384

noncomputable section

namespace Cert.KernelIdeal.HostVal

open Cert.KernelIdeal Cert.KernelIdeal.Gen
open Idealize.ShloMosaic Idealize.ShloMosaic.TcCoe Idealize.SL.Sem Idealize.ShloMosaic.StableHlo

variable {F : FTy → Type} [FloatOps F]

/-- The edges' source nodes: the edge list's first row. -/
def srcOf (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The edges' destination nodes: the edge list's second row. -/
def dstOf (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The neighbour sums of `x`: the source rows gathered (a negative index counted from the end) and added into their
    destination rows, from zero. -/
def aggOf (src dst : (⟨S800000, .i32⟩ : BufTy).Contents (Elt F)) (x : (⟨S50000x128, .f32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant (F := F) S_ .f32 0x00000000#32))
    (broadcastInDim S800000x1 ![0] bcast_S800000_S800000x1_0 dst)
    (Host.gather gather_S50000x128_S800000x1_S800000x128_1_0_n_n_0_1_1128 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

variable (m : (ℓ : Loc nD τ sig) → Buf (Elt F) ℓ) (ρ : Dev nD → PrngReg) (c : Dev nD)

/-! ## Before the first launch -/

/-- The source-node vector, once computed, is the edge list's first row. -/
theorem W1_src : W1 m ρ c (Proc.devRef .tc main_v1) = srcOf (m ((c : Thread nD τ).loc main_arg1)) := by
  unfold srcOf
  show StableHlo.after hostOps0 (W0 m ρ c) (Proc.devRef .tc main_v1) = _
  dsimp only [hostOps0]
  after_results
  rfl

/-- The destination-node vector is the edge list's second row. -/
theorem W1_dst : W1 m ρ c (Proc.devRef .tc main_v3) = dstOf (m ((c : Thread nD τ).loc main_arg1)) := by
  unfold dstOf
  show StableHlo.after hostOps0 (W0 m ρ c) (Proc.devRef .tc main_v3) = _
  dsimp only [hostOps0]
  after_results
  rfl

set_option maxHeartbeats 1000000 in
/-- The first launch's first input: the neighbour sums of the node features. -/
theorem V1_agg : V1 m ρ c main_v17 = aggOf (srcOf (m ((c : Thread nD τ).loc main_arg1)))
    (dstOf (m ((c : Thread nD τ).loc main_arg1))) (m ((c : Thread nD τ).loc main_arg0)) := by
  unfold aggOf srcOf dstOf
  show StableHlo.after hostOps0 (W0 m ρ c) (Proc.devRef .tc main_v17) = _
  dsimp only [hostOps0]
  after_results_simp
  rfl

/-- Its second input: the node features, an argument no host operation writes. -/
theorem V1_x : V1 m ρ c main_arg0 = m ((c : Thread nD τ).loc main_arg0) := by
  show StableHlo.after hostOps0 (W0 m ρ c) (Proc.devRef .tc main_arg0) = _
  dsimp only [hostOps0]
  after_results

/-- Its third input: the first neighbour weight, transposed. -/
theorem V1_wrelT : V1 m ρ c main_v4 = transpose S128x128 [1, 0] (m ((c : Thread nD τ).loc main_arg2)) transposes_S128x128_S128x128_1_0 := by
  show StableHlo.after hostOps0 (W0 m ρ c) (Proc.devRef .tc main_v4) = _
  dsimp only [hostOps0]
  after_results

/-- Its fourth input: the first root weight, transposed. -/
theorem V1_wrootT : V1 m ρ c main_v5 = transpose S128x128 [1, 0] (m ((c : Thread nD τ).loc main_arg3)) transposes_S128x128_S128x128_1_0 := by
  show StableHlo.after hostOps0 (W0 m ρ c) (Proc.devRef .tc main_v5) = _
  dsimp only [hostOps0]
  after_results

/-- Its fifth input: the first bias, an argument. -/
theorem V1_b : V1 m ρ c main_arg4 = m ((c : Thread nD τ).loc main_arg4) := by
  show StableHlo.after hostOps0 (W0 m ρ c) (Proc.devRef .tc main_arg4) = _
  dsimp only [hostOps0]
  after_results

/-! ## Between the launches -/

/-- The second launch's second input is the first launch's result: no host operation in between writes it. -/
theorem V3_t : V3 m ρ c main_v18 = W2 m ρ c (Proc.devRef .tc main_v18) := by
  show StableHlo.after hostOps1 (W2 m ρ c) (Proc.devRef .tc main_v18) = _
  dsimp only [hostOps1]
  after_results

/-- The second launch's first input: the neighbour sums of the first launch's result, over the same index vectors
    (computed before the first launch, which does not touch them). -/
theorem V3_agg : V3 m ρ c main_v28 = aggOf (srcOf (m ((c : Thread nD τ).loc main_arg1)))
    (dstOf (m ((c : Thread nD τ).loc main_arg1))) (W2 m ρ c (Proc.devRef .tc main_v18)) := by
  show StableHlo.after hostOps1 (W2 m ρ c) (Proc.devRef .tc main_v28) = _
  dsimp only [hostOps1]
  after_results
  rw [W2_of_ne m ρ c main_v1 (by decide), W2_of_ne m ρ c main_v3 (by decide), W1_src, W1_dst]
  rfl

/-- Its third input: the second neighbour weight, transposed before the first launch and not written since. -/
theorem V3_wrelT : V3 m ρ c main_v6 = transpose S128x64 [1, 0] (m ((c : Thread nD τ).loc main_arg5)) transposes_S64x128_S128x64_1_0 := by
  show StableHlo.after hostOps1 (W2 m ρ c) (Proc.devRef .tc main_v6) = _
  dsimp only [hostOps1]
  after_results
  rw [W2_of_ne m ρ c main_v6 (by decide)]
  show StableHlo.after hostOps0 (W0 m ρ c) (Proc.devRef .tc main_v6) = _
  dsimp only [hostOps0]
  after_results

/-- Its fourth input: the second root weight, transposed. -/
theorem V3_wrootT : V3 m ρ c main_v7 = transpose S128x64 [1, 0] (m ((c : Thread nD τ).loc main_arg6)) transposes_S64x128_S128x64_1_0 := by
  show StableHlo.after hostOps1 (W2 m ρ c) (Proc.devRef .tc main_v7) = _
  dsimp only [hostOps1]
  after_results
  rw [W2_of_ne m ρ c main_v7 (by decide)]
  show StableHlo.after hostOps0 (W0 m ρ c) (Proc.devRef .tc main_v7) = _
  dsimp only [hostOps0]
  after_results

/-- Its fifth input: the second bias, an argument. -/
theorem V3_b : V3 m ρ c main_arg7 = m ((c : Thread nD τ).loc main_arg7) := by
  show StableHlo.after hostOps1 (W2 m ρ c) (Proc.devRef .tc main_arg7) = _
  dsimp only [hostOps1]
  after_results
  rw [W2_of_ne m ρ c main_arg7 (by decide)]
  show StableHlo.after hostOps0 (W0 m ρ c) (Proc.devRef .tc main_arg7) = _
  dsimp only [hostOps0]
  after_results

end Cert.KernelIdeal.HostVal

end
-- ==== Proof.KValue.lean ====
/-
  The kernel program's result as one function of its arguments.

  The first launch finds the neighbour sums of the features, the features, the two first-layer weights transposed and
  the first bias, so it leaves the first layer `layer1`: the layer formula over the weights as given (a product with a
  transposed weight reads the weight's rows), followed by the maximum with zero. The second launch finds the neighbour
  sums of `layer1`, `layer1` itself, the two second-layer weights transposed and the second bias, so the program's result
  is the layer formula over those: `out_value`.
-/
import proofs.«155508_j21260088115544_1_alg».proof.Proof.KRegion0
import proofs.«155508_j21260088115544_1_alg».proof.Proof.KRegion1
import proofs.«155508_j21260088115544_1_alg».proof.Proof.KHost
import proofs.«155508_j21260088115544_1_alg».proof.Proof.Spec

set_option maxRecDepth 16384

noncomputable section

namespace Cert.KernelIdeal.KValue

open Cert.KernelIdeal Cert.KernelIdeal.Gen Cert.KernelIdeal.HostVal Cert.GraphConv
open Idealize.ShloMosaic Idealize.ShloMosaic.TcCoe Idealize.SL.Sem

variable (m : (ℓ : Loc nD τ sig) → Buf (Elt Ideal) ℓ) (ρ : Dev nD → PrngReg) (c : Dev nD)

/-- The neighbour sums of a feature array, over the program's edge list. -/
abbrev agg (x : FVec Ideal S50000x128 .f32) : FVec Ideal S50000x128 .f32 :=
  aggOf (F := Ideal) (srcOf (m ((c : Thread nD τ).loc main_arg1))) (dstOf (m ((c : Thread nD τ).loc main_arg1))) x

/-- The first layer of the arguments. -/
def layer1 : FVec Ideal S50000x128 .f32 :=
  relu (conv128 (agg m c (m ((c : Thread nD τ).loc main_arg0))) (m ((c : Thread nD τ).loc main_arg0))
    (m ((c : Thread nD τ).loc main_arg2)) (m ((c : Thread nD τ).loc main_arg3)) (m ((c : Thread nD τ).loc main_arg4)))

/-- After the first launch its result array holds the first layer. -/
theorem t_value : W2 m ρ c (Proc.devRef .tc main_v18) = layer1 m c := by
  refine (W2_arr m ρ c 5).trans ?_
  refine (Region0.value (V1 m ρ) c).trans ?_
  show relu (convT128 (V1 m ρ c main_v17) (V1 m ρ c main_arg0) (V1 m ρ c main_v4) (V1 m ρ c main_v5) (V1 m ρ c main_arg4)) = _
  rw [V1_agg, V1_x, V1_wrelT, V1_wrootT, V1_b]
  exact congrArg relu (convT128_transpose _ _ _ _ _ _ _)

/-- The program's result array holds the second layer over the first. -/
theorem out_value : W4 m ρ c (Proc.devRef .tc main_v29)
    = conv64 (agg m c (layer1 m c)) (layer1 m c)
        (m ((c : Thread nD τ).loc main_arg5)) (m ((c : Thread nD τ).loc main_arg6)) (m ((c : Thread nD τ).loc main_arg7)) := by
  refine (W4_arr m ρ c 5).trans ?_
  refine (Region1.value (V3 m ρ) c).trans ?_
  show convT64 (V3 m ρ c main_v28) (V3 m ρ c main_v18) (V3 m ρ c main_v6) (V3 m ρ c main_v7) (V3 m ρ c main_arg7) = _
  rw [V3_agg, V3_t, V3_wrelT, V3_wrootT, V3_b, t_value]
  exact convT64_transpose _ _ _ _ _ _ _

end Cert.KernelIdeal.KValue

end
-- ==== Proof.RefValue.lean ====
/-
  The reference, stage by stage, is the layer formula.

  The reference computes each layer's linear part as two products that contract the feature axis of the node array
  with the SECOND axis of a weight stored [out, in], adds them, and adds the bias broadcast over the nodes; after the
  first layer it takes the maximum with zero. Read at node `n` and output feature `h` this is, term by term,

      (Σ_k A[n,k] · W[h,k]  +  Σ_k X[n,k] · Wr[h,k])  +  b[h] ,

  with `A` the neighbour sums the reference itself computes. The second layer's neighbour sums are the same function of
  the edge list, applied to the first layer's result.
-/
import proofs.«155508_j21260088115544_1_alg».proof.Proof.Gen.ReferenceIdeal.Read
import proofs.«155508_j21260088115544_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.GraphConv

/-! ## Where each product reads its operands, at literal coordinates -/

theorem lidx14 (n : Fin 50000) (h k : Fin 128) : lidx_main_v14 (ix2 n h) k = ix2 n k :=
  funext fun a => Fin.ext (by match a with | ⟨0, _⟩ => rfl | ⟨1, _⟩ => rfl)
theorem ridx14 (n : Fin 50000) (h k : Fin 128) : ridx_main_v14 (ix2 n h) k = ix2 h k :=
  funext fun a => Fin.ext (by match a with | ⟨0, _⟩ => rfl | ⟨1, _⟩ => rfl)
theorem lidx15 (n : Fin 50000) (h k : Fin 128) : lidx_main_v15 (ix2 n h) k = ix2 n k :=
  funext fun a => Fin.ext (by match a with | ⟨0, _⟩ => rfl | ⟨1, _⟩ => rfl)
theorem ridx15 (n : Fin 50000) (h k : Fin 128) : ridx_main_v15 (ix2 n h) k = ix2 h k :=
  funext fun a => Fin.ext (by match a with | ⟨0, _⟩ => rfl | ⟨1, _⟩ => rfl)
theorem bidx18 (n : Fin 50000) (h : Fin 128) : idx_main_v17 (idx_main_v18 (ix2 n h)) = ix1 h :=
  funext fun a => Fin.ext (by match a with | ⟨0, _⟩ => rfl)

theorem lidx31 (n : Fin 50000) (h : Fin 64) (k : Fin 128) : lidx_main_v31 (ix2 n h) k = ix2 n k :=
  funext fun a => Fin.ext (by match a with | ⟨0, _⟩ => rfl | ⟨1, _⟩ => rfl)
theorem ridx31 (n : Fin 50000) (h : Fin 64) (k : Fin 128) : ridx_main_v31 (ix2 n h) k = ix2 h k :=
  funext fun a => Fin.ext (by match a with | ⟨0, _⟩ => rfl | ⟨1, _⟩ => rfl)
theorem lidx32 (n : Fin 50000) (h : Fin 64) (k : Fin 128) : lidx_main_v32 (ix2 n h) k = ix2 n k :=
  funext fun a => Fin.ext (by match a with | ⟨0, _⟩ => rfl | ⟨1, _⟩ => rfl)
theorem ridx32 (n : Fin 50000) (h : Fin 64) (k : Fin 128) : ridx_main_v32 (ix2 n h) k = ix2 h k :=
  funext fun a => Fin.ext (by match a with | ⟨0, _⟩ => rfl | ⟨1, _⟩ => rfl)
theorem bidx35 (n : Fin 50000) (h : Fin 64) : idx_main_v34 (idx_main_v35 (ix2 n h)) = ix1 h :=
  funext fun a => Fin.ext (by match a with | ⟨0, _⟩ => rfl)

variable (x0 : (⟨S50000x128, .f32⟩ : BufTy).Contents (Elt Ideal)) (x1 : (⟨S2x800000, .i32⟩ : BufTy).Contents (Elt Ideal))
  (x2 x3 : (⟨S128x128, .f32⟩ : BufTy).Contents (Elt Ideal)) (x4 : (⟨S128, .f32⟩ : BufTy).Contents (Elt Ideal))
  (x5 x6 : (⟨S64x128, .f32⟩ : BufTy).Contents (Elt Ideal)) (x7 : (⟨S64, .f32⟩ : BufTy).Contents (Elt Ideal))

/-! ## The first layer -/

/-- The first layer's linear part is the layer formula over the reference's own neighbour sums. -/
theorem lin1_eq : val_main_v19 (F := Ideal) x0 x1 x2 x3 x4 = conv128 (val_main_v13 (F := Ideal) x0 x1) x0 x2 x3 x4 := by
  funext i
  obtain ⟨n, h, rfl⟩ : ∃ (n : Fin 50000) (h : Fin 128), i = ix2 n h := ⟨i 0, i 1, eq_ix2 i⟩
  rw [val_main_v19_apply, val_main_v16_apply, val_main_v14_apply, val_main_v15_apply, val_main_v18_apply,
    val_main_v17_apply, conv128_ix2]
  simp only [lidx14, ridx14, lidx15, ridx15, bidx18]
  rfl

/-- The first layer: the maximum of its linear part with zero. -/
theorem layer1_eq : val_main_v20 (F := Ideal) x0 x1 x2 x3 x4
    = relu (conv128 (val_main_v13 (F := Ideal) x0 x1) x0 x2 x3 x4) := by
  funext i
  rw [val_main_v20_apply, val_main_call0_v0_apply, val_main_call0_cst_apply, lin1_eq, relu_apply]
  show max _ (Ideal.ofBits .f32 0x00000000#32) = max _ 0
  rw [Ideal.ofBits_zero_f32]

/-! ## The second layer -/

/-- The second layer's neighbour sums are the first layer's function of the edge list, applied to the first layer's
    result: the same gather and the same scatter over the same index vectors. -/
theorem agg2_eq : val_main_v30 (F := Ideal) x0 x1 x2 x3 x4
    = val_main_v13 (F := Ideal) (val_main_v20 (F := Ideal) x0 x1 x2 x3 x4) x1 := by
  unfold val_main_v30 val_main_v27
  generalize val_main_v20 (F := Ideal) x0 x1 x2 x3 x4 = y
  rfl

/-- The second layer is the layer formula over its neighbour sums and the first layer's result. -/
theorem layer2_eq : val_main_v36 (F := Ideal) x0 x1 x2 x3 x4 x5 x6 x7
    = conv64 (val_main_v30 (F := Ideal) x0 x1 x2 x3 x4) (val_main_v20 (F := Ideal) x0 x1 x2 x3 x4) x5 x6 x7 := by
  funext i
  obtain ⟨n, h, rfl⟩ : ∃ (n : Fin 50000) (h : Fin 64), i = ix2 n h := ⟨i 0, i 1, eq_ix2 i⟩
  rw [val_main_v36_apply, val_main_v33_apply, val_main_v31_apply, val_main_v32_apply, val_main_v35_apply,
    val_main_v34_apply, conv64_ix2]
  simp only [lidx31, ridx31, lidx32, ridx32, bidx35]
  rfl

end Cert.ReferenceIdeal.RefValue

end
-- ==== Proof.Bridge.lean ====
/-
  The kernel program's result is the reference's.

  Both programs compute the neighbour sums by the same gather and the same scatter-add over the same two rows of the
  edge list, so the neighbour sums are ONE function of the edge list and a feature array on both sides (`agg_eq`), and it
  is never opened. The kernel program's first layer is then the reference's (`layer1_eq`): the same layer formula over
  equal neighbour sums, followed by the maximum with zero. The second layer's neighbour sums are that one function again,
  of equal first layers, and the second layer is the layer formula over them on both sides (`result_eq`).
-/
import proofs.«155508_j21260088115544_1_alg».proof.Proof.KValue
import proofs.«155508_j21260088115544_1_alg».proof.Proof.RefValue

set_option maxRecDepth 16384

noncomputable section

namespace Cert.Bridge

open Idealize.ShloMosaic Idealize.ShloMosaic.TcCoe Idealize.SL.Sem Cert.GraphConv

/-- The kernel program's neighbour sums are the reference's: the same operations on the same operands. -/
theorem agg_eq (e : (⟨Cert.KernelIdeal.S2x800000, .i32⟩ : BufTy).Contents (Elt Ideal))
    (x : (⟨Cert.KernelIdeal.S50000x128, .f32⟩ : BufTy).Contents (Elt Ideal)) :
    Cert.KernelIdeal.HostVal.aggOf (F := Ideal) (Cert.KernelIdeal.HostVal.srcOf e) (Cert.KernelIdeal.HostVal.dstOf e) x
      = Cert.ReferenceIdeal.Read.val_main_v13 (F := Ideal) x e := rfl

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- The kernel program's first layer is the reference's. -/
theorem layer1_eq : Cert.KernelIdeal.KValue.layer1 m c
    = Cert.ReferenceIdeal.Read.val_main_v20 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) :=
  (congrArg (fun Z => relu (conv128 Z (m ((c : Thread Cert.KernelIdeal.nD Cert.KernelIdeal.τ).loc Cert.KernelIdeal.main_arg0)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)))) (agg_eq (m ((c : Thread Cert.KernelIdeal.nD Cert.KernelIdeal.τ).loc Cert.KernelIdeal.main_arg1)) (m ((c : Thread Cert.KernelIdeal.nD Cert.KernelIdeal.τ).loc Cert.KernelIdeal.main_arg0)))).trans
    (Cert.ReferenceIdeal.RefValue.layer1_eq (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4))).symm

/-- The kernel program's result array is the reference's result, as functions of the same arguments. -/
theorem result_eq : Cert.KernelIdeal.Gen.W4 m ρ c (Proc.devRef .tc Cert.KernelIdeal.main_v29)
    = Cert.ReferenceIdeal.Read.val_main_v36 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) := by
  refine (Cert.KernelIdeal.KValue.out_value m ρ c).trans ?_
  rw [Cert.ReferenceIdeal.RefValue.layer2_eq, Cert.ReferenceIdeal.RefValue.agg2_eq, ← layer1_eq m c]
  exact congrArg (fun Z => conv64 Z (Cert.KernelIdeal.KValue.layer1 m c) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)))
    (agg_eq (m ((c : Thread Cert.KernelIdeal.nD Cert.KernelIdeal.τ).loc Cert.KernelIdeal.main_arg1)) (Cert.KernelIdeal.KValue.layer1 m c))

end Cert.Bridge

end
-- ==== Proof.lean ====
/-
  Two graph-convolution layers: the tiled kernel program against the plain reference, equal over the extended reals.

  Both programs take node features x (50000 × 128), an edge list (2 × 800000 integers: source and destination nodes), and
  per layer a neighbour weight, a root weight (each stored [out, in]) and a bias. A layer is

      y[n, h] = (Σ_k A[n,k] · W[h,k]  +  Σ_k X[n,k] · Wr[h,k])  +  b[h] ,

  with X the layer's input and A its neighbour sums: each edge's source row of X gathered and added into the edge's
  destination row, from zero. The first layer (128 outputs) is followed by the maximum with zero; the second (64 outputs)
  is the result.

  The reference computes each layer with two products that contract the feature axis with the weights' second axis.
  The kernel program transposes the weights beforehand, computes the neighbour sums on the host exactly as the reference
  does, and runs each layer as a launch over ten blocks of 5000 nodes: per block, two products of the block with the
  transposed weights into zero accumulators, their sum, the bias, and for the first layer the maximum with zero. Its
  operands are narrowed to a shorter float format before the products, which over the extended reals is the identity.

  Why the two agree, entry by entry: a product with a transposed weight at (n, h) is Σ_k A[n,k] · W[h,k], the reference's
  own sum, term by term and in the same order; the additions are grouped the same way on both sides; a block of rows of
  the result depends only on the same rows of A and X, and the ten blocks tile the rows; and the neighbour sums are one
  function of the edge list and a feature array on both sides. No law of the extended reals beyond reading indices is
  used, so the inputs' finiteness is never opened.

  The three frames: the two kernel programs' are the generated ones; the reference's is its generated run with the result
  dropped. The idealization rewrote nothing, so the kernel program's sanctioned idealization has nothing to state.
-/
import proofs.«155508_j21260088115544_1_alg».proof.Defs
import proofs.«155508_j21260088115544_1_alg».proof.Proof.Gen.Kernel
import proofs.«155508_j21260088115544_1_alg».proof.Proof.Gen.Kernel.Frame
import proofs.«155508_j21260088115544_1_alg».proof.Proof.Gen.KernelIdeal
import proofs.«155508_j21260088115544_1_alg».proof.Proof.Gen.KernelIdeal.Frame
import proofs.«155508_j21260088115544_1_alg».proof.Proof.Gen.ReferenceIdeal
import proofs.«155508_j21260088115544_1_alg».proof.Proof.Gen.ReferenceIdeal.Run
import proofs.«155508_j21260088115544_1_alg».proof.Proof.Gen.ReferenceIdeal.Read
import proofs.«155508_j21260088115544_1_alg».proof.Proof.Gen.Pre_finite_inputs
import proofs.«155508_j21260088115544_1_alg».proof.Proof.KRun
import proofs.«155508_j21260088115544_1_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs to the end, faults nowhere and leaves its arguments as they were. -/
theorem frame_kernel : Cert.frame_Kernel := fun m ρ _ => Cert.Kernel.Gen.frame m ρ

/-- The same of the kernel program read over the extended reals. -/
theorem frame_kernelIdeal : Cert.frame_KernelIdeal := fun m ρ _ => Cert.KernelIdeal.Gen.frame m ρ

/-- The reference runs to the end and leaves its arguments as they were: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten when the kernel program was read over the extended reals. -/
theorem preserves : Cert.preserves_Kernel_KernelIdeal := trivial

/-- From memories that agree on the arguments both programs end with the same result array: the kernel program's is
    the second layer over the first, as a function of its arguments (its run with the result named, and the value of what
    the last launch leaves), and the reference's run ends at the same function of the same arguments. -/
theorem algebraic : Cert.algebraic_KernelIdeal_ReferenceIdeal := by
  intro m ρ m' ρ' _ hagree
  refine ⟨fun c => Cert.KernelIdeal.Gen.W4 m ρ c (Proc.devRef .tc Cert.KernelIdeal.main_v29),
    Cert.KernelIdeal.RunNamed.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v36_eq, a0, a1, a2, a3, a4, a5, a6, a7]
  exact (Cert.Bridge.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
